-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S128x128 .f32) (main_arg3 : FVec F S128 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S400x10000 : Shape := ⟨2, ![400, 10000]⟩
abbrev S400x128 : Shape := ⟨2, ![400, 128]⟩
abbrev S1x128 : Shape := ⟨2, ![1, 128]⟩
abbrev S1x1 : Shape := ⟨2, ![1, 1]⟩
abbrev S1000x10000 : Shape := ⟨2, ![1000, 10000]⟩
abbrev S1000x128 : Shape := ⟨2, ![1000, 128]⟩

abbrev nBuf : Space → Nat
  | .hbm => 10
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x128, .bf16⟩
  | .hbm, ⟨6, _⟩ => ⟨S10000x10000, .bf16⟩
  | .hbm, ⟨7, _⟩ => ⟨S1x128, .f32⟩
  | .hbm, ⟨8, _⟩ => ⟨S1x1, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S400x128, .bf16⟩
  | .local _ .vmem, ⟨5, _⟩ => ⟨S400x128, .bf16⟩
  | .local _ .vmem, ⟨6, _⟩ => ⟨S400x10000, .bf16⟩
  | .local _ .vmem, ⟨7, _⟩ => ⟨S400x10000, .bf16⟩
  | .local _ .vmem, ⟨8, _⟩ => ⟨S10000x128, .f32⟩
  | .local _ .vmem, ⟨9, _⟩ => ⟨S1000x10000, .bf16⟩
  | .local _ .vmem, ⟨10, _⟩ => ⟨S1000x10000, .bf16⟩
  | .local _ .vmem, ⟨11, _⟩ => ⟨S10000x128, .bf16⟩
  | .local _ .vmem, ⟨12, _⟩ => ⟨S1x128, .f32⟩
  | .local _ .vmem, ⟨13, _⟩ => ⟨S1x1, .f32⟩
  | .local _ .vmem, ⟨14, _⟩ => ⟨S1000x128, .f32⟩
  | .local _ .vmem, ⟨15, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c1_i32 : BitVec 32 := 1#32
  let v3 : BitVec 1 := Scalar.cmpi .sge arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c0_i32_0 : BitVec 32 := 0#32
  let v2 : BitVec 32 := Scalar.select v0 c0_i32_0 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c0_i32_0 : BitVec 32 := 0#32
  let v2 : BitVec 32 := Scalar.select v0 c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c0_i32_0 : BitVec 32 := 0#32
  let v2 : BitVec 32 := Scalar.select v0 c0_i32_0 v1
  let c0_i32_1 : BitVec 32 := 0#32
  let c0_i32_2 : BitVec 32 := 0#32
  ![v2.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S128_S1x128 : S128.ShapeCasts S1x128
  shapeCasts_S_S1x1 : S_.ShapeCasts S1x1
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1000x128_S1000x128_0_0 : ∀ a, (![0, 0] : Fin 2 → Nat) a + S1000x128.size a ≤ S1000x128.size a
  h_S1000x128 : 0 < S1000x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  dot_S1000x10000_S10000x128_S1000x128_1_0_0_1_n_n_wf : DotDims.WF S1000x10000 S10000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .bf16 = 32 ∨ (Rect.block (s := S10000x128) S400x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .bf16 = 32 ∨ (Rect.block (s := S10000x10000) S400x10000.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S10000x128.size a
  hwx1_4 : ∀ i : grid1.Coords, EltTy.bits .f32 = 32 ∨ (Rect.block (s := S10000x128) S1000x128.size (cc1_transform_4 i) (hinb1_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S400x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S400x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .i1⟩
  | .hbm, ⟨15, _⟩ => ⟨S10000x128, .f32⟩
  | .hbm, ⟨16, _⟩ => ⟨S10000x128, .f32⟩
  | .hbm, ⟨17, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Base.lean ====
import proofs.«164877_g18975165514648_fold_wed_m_529_18_alg».proof.Proof.Gen.Kernel.Launch
import proofs.«164877_g18975165514648_fold_wed_m_529_18_alg».proof.Proof.Gen.Kernel.Skeleton
import proofs.«164877_g18975165514648_fold_wed_m_529_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What both regions' proofs share

The first call walks 26 grid points over 25 row stripes of `adj`: point 0 fills a scratch with `seq · Wᵀ`;
point `t ≥ 1` reads stripe `t - 1` and writes that stripe of the narrowed copy of `adj` and of the first hop
`adj · scratch`. The second call walks 10 stripes of 1000 rows and writes `prelu (adj · hop₁ + bias)`.
Everything here is stated at a parameter `V`: the core's buffer contents when the region is entered. -/

section
variable (V : (c : Dev nD) → (b : Ref sig .tc) → Buf (Elt F) ((c : Thread nD τ).loc b))

/-- Window `w`'s block of the first call at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second call at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end

/-! ## The whole-buffer rectangles the bodies load and store through -/

abbrev rSeq : Rect S10000x128 := Rect.unit (s := S10000x128) ![0, 0] S10000x128.size inb_S10000x128_S10000x128_0_0
abbrev rW : Rect S128x128 := Rect.unit (s := S128x128) ![0, 0] S128x128.size inb_S128x128_S128x128_0_0
abbrev rStripe : Rect S400x10000 := Rect.unit (s := S400x10000) ![0, 0] S400x10000.size inb_S400x10000_S400x10000_0_0
abbrev rHop : Rect S400x128 := Rect.unit (s := S400x128) ![0, 0] S400x128.size inb_S400x128_S400x128_0_0
abbrev rStripe2 : Rect S1000x10000 := Rect.unit (s := S1000x10000) ![0, 0] S1000x10000.size inb_S1000x10000_S1000x10000_0_0
abbrev rBias : Rect S1x128 := Rect.unit (s := S1x128) ![0, 0] S1x128.size inb_S1x128_S1x128_0_0
abbrev rSlope : Rect S1x1 := Rect.unit (s := S1x1) ![0, 0] S1x1.size inb_S1x1_S1x1_0_0
abbrev rOut : Rect S1000x128 := Rect.unit (s := S1000x128) ![0, 0] S1000x128.size inb_S1000x128_S1000x128_0_0

/-! ## What each store leaves, as one covering piece -/

/-- The scratch after point 0: `seq · Wᵀ` of the two input blocks. -/
def scr0 (xseq : Vec F S10000x128 .f32) (xw : Vec F S128x128 .f32) : Vec F S10000x128 .f32 :=
  View.canon [⟨rSeq, k0_pay1 (View.ld xseq rSeq) (View.ld xw rW)⟩]

/-- The first-hop stripe a later point stores: the `adj` stripe times the scratch, narrowed. -/
def hop0 (xadj : Vec F S400x10000 .f32) (xs : Vec F S10000x128 .f32) : Vec F S400x128 .bf16 :=
  View.canon [⟨rHop, k0_pay3 (View.ld xadj rStripe) (View.ld xs rSeq)⟩]

/-- The narrowed copy of the `adj` stripe a later point stores. -/
def nar0 (xadj : Vec F S400x10000 .f32) : Vec F S400x10000 .bf16 :=
  View.canon [⟨rStripe, k0_pay2 (View.ld xadj rStripe)⟩]

/-- The output stripe a point of the second call stores. -/
def out1 (xa : Vec F S1000x10000 .bf16) (xh : Vec F S10000x128 .bf16) (xb : Vec F S1x128 .f32) (xp : Vec F S1x1 .f32) : Vec F S1000x128 .f32 :=
  View.canon [⟨rOut, k1_pay1 (View.ld xa rStripe2) (View.ld xh rSeq) (View.ld xb rBias) (View.ld xp rSlope)⟩]

theorem cover_scr (p : Vec F S10000x128 .f32) (y : S10000x128.Idx) :
    ∃ pc ∈ ([⟨rSeq, p⟩] : List (View.Piece (Elt F) S10000x128 .f32)), y ∈ pc.1.set :=
  View.cover_of_tiled [⟨rSeq, p⟩] S10000x128.size (by rfl) y
theorem cover_hop (p : Vec F S400x128 .bf16) (y : S400x128.Idx) :
    ∃ pc ∈ ([⟨rHop, p⟩] : List (View.Piece (Elt F) S400x128 .bf16)), y ∈ pc.1.set :=
  View.cover_of_tiled [⟨rHop, p⟩] S400x128.size (by rfl) y
theorem cover_nar (p : Vec F S400x10000 .bf16) (y : S400x10000.Idx) :
    ∃ pc ∈ ([⟨rStripe, p⟩] : List (View.Piece (Elt F) S400x10000 .bf16)), y ∈ pc.1.set :=
  View.cover_of_tiled [⟨rStripe, p⟩] S400x10000.size (by rfl) y
theorem cover_out (p : Vec F S1000x128 .f32) (y : S1000x128.Idx) :
    ∃ pc ∈ ([⟨rOut, p⟩] : List (View.Piece (Elt F) S1000x128 .f32)), y ∈ pc.1.set :=
  View.cover_of_tiled [⟨rOut, p⟩] S1000x128.size (by rfl) y

/-! ## The first call's two branches over the grid -/

/-- The first branch (fill the scratch) as the body computes it from the grid coordinate. -/
abbrev cond0_0 (i : grid0.Coords) : Prop := (Scalar.cmpi .ne (Scalar.extui (Scalar.cmpi .eq (BitVec.ofNat 32 (i 0).val) 0#32)) 0#32) = 1#1
/-- It is taken at point 0 only. -/
theorem hcond0_0 : ∀ t : Fin cfg0.N, cond0_0 (grid0.coords t) ↔ t.val = 0 :=
  (by decide +kernel : ∀ t : Fin grid0.N, cond0_0 (grid0.coords t) ↔ t.val = 0)
/-- The second branch (one stripe of work). -/
abbrev cond0_1 (i : grid0.Coords) : Prop := k0_cond2 i = 1#1
/-- It is taken at every point but 0. -/
theorem hcond0_1 : ∀ t : Fin cfg0.N, cond0_1 (grid0.coords t) ↔ t.val ≠ 0 :=
  (by decide +kernel : ∀ t : Fin grid0.N, cond0_1 (grid0.coords t) ↔ t.val ≠ 0)

/-! ## Where the first call's windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- At point 0 nothing is stored into either output stripe, and neither is written back there. -/
theorem idle0_3 : ∀ t : Fin cfg0.N, t.val = 0 → cfg0.idle 3 (grid0.coords t) = true := by decide +kernel
theorem noFlush0_3 : ∀ t : Fin cfg0.N, t.val = 0 → (cfg0.win 3).flush t = false := by decide +kernel
theorem idle0_4 : ∀ t : Fin cfg0.N, t.val = 0 → cfg0.idle 4 (grid0.coords t) = true := by decide +kernel
theorem noFlush0_4 : ∀ t : Fin cfg0.N, t.val = 0 → (cfg0.win 4).flush t = false := by decide +kernel
theorem live0_3 : ∀ t : Fin cfg0.N, t.val ≠ 0 → cfg0.idle 3 (grid0.coords t) = false := by decide +kernel
theorem live0_4 : ∀ t : Fin cfg0.N, t.val ≠ 0 → cfg0.idle 4 (grid0.coords t) = false := by decide +kernel
theorem live1 : ∀ (w : Fin 5) (t : Fin cfg1.N), cfg1.idle w (grid1.coords t) = false := by decide +kernel

/-! ## The staging memrefs at a point, and the scratch -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x10000 .bf16 := win0_4.stage (cfg0.slots t 4)
abbrev hs0_4 (t : Fin cfg0.N) : (ms0_4 t).IsWhole := hstage0_4 ((cfg0.slots t 4).cast nbuf0_4)
/-- The scratch the first call keeps from point to point. -/
abbrev scM : Memref sig .tc .vmem S10000x128 .f32 := Memref.whole cc0_scratch0

abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x128 .f32 := win1_4.stage (cfg1.slots t 4)
abbrev hs1_4 (t : Fin cfg1.N) : (ms1_4 t).IsWhole := hstage1_4 ((cfg1.slots t 4).cast nbuf1_4)

/-- The first call's scoped buffers other than the scratch (the second call's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant of the first call, with the scratch split off as a memref owned at some contents. -/
theorem PhiA0_eq (c : Dev nD) :
    (Pipeline.ΦA spec0 c : sProp 𝕄)
      = iprop(iprop((∃ d, owns (c : Thread nD τ) scM fullShare d) ∗ others0 c) ∗ (∃ r, prngReg c r)) := by
  unfold Pipeline.ΦA others0; rw [scopedRest0_eq]; simp only [scM, owns_whole]; try rfl

end Cert.Kernel.Fr

end
-- ==== Proof.Kernel.Runs.lean ====
import proofs.«164877_g18975165514648_fold_wed_m_529_18_alg».proof.Proof.Kernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two bodies on arbitrary whole staging memrefs

Each body is run once per branch assignment the grid meets. Inputs are held at read contents and come back as they
were; a buffer the branch stores whole comes back at that store's covering piece; a buffer the branch does not store
comes back untouched. -/

set_option maxHeartbeats 1000000 in
/-- Point 0 of the first call: only the scratch is stored, at `seq · Wᵀ` of the two resident blocks; the stripe input
    and both output stripes are not touched. -/
theorem run0_first (c : Dev nD) (E : Set ℕ) (i : grid0.Coords) (hc0 : cond0_0 i) (hc1 : ¬cond0_1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S400x128 .bf16) (harg4 : arg4.IsWhole)
    (arg5 : Memref sig .tc .vmem S400x10000 .bf16) (harg5 : arg5.IsWhole) (arg6 : Memref sig .tc .vmem S10000x128 .f32) (harg6 : arg6.IsWhole)
    (x1 : Vec F S10000x128 .f32) (x2 : Vec F S128x128 .f32) (K : PUnit → sProp 𝕄) :
    iprop(owns (c : Thread nD τ) arg2 fullShare x1 ∗ owns (c : Thread nD τ) arg3 fullShare x2 ∗ (∃ d, owns (c : Thread nD τ) arg6 fullShare d)
        ∗ (iprop(owns (c : Thread nD τ) arg2 fullShare x1 ∗ owns (c : Thread nD τ) arg3 fullShare x2 ∗ owns (c : Thread nD τ) arg6 fullShare (scr0 x1 x2)) -∗ K ⟨⟩))
      ⊢ wp frame (wpE (defs₀ (F := F)) Variants.none c none) E (cc0__hop1_kern i arg1 harg1 arg2 harg2 arg3 harg3 arg4 harg4 arg5 harg5 arg6 harg6) K := by
  simp only [cc0__hop1_kern_eq_skeleton]; unfold cc0__hop1_kern_skel
  unfold owns
  iintro ⟨⟨%f1, %hf1, H1⟩, ⟨%f2, %hf2, H2⟩, ⟨%d6, %f6, -, H6⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H6
  ipureintro
  exact View.read_writes_eq_canon _ _ _ (cover_scr _)

set_option maxHeartbeats 1000000 in
/-- A later point of the first call: the narrowed stripe and the first-hop stripe are stored whole; the scratch is only
    read and comes back as it was. -/
theorem run0_later (c : Dev nD) (E : Set ℕ) (i : grid0.Coords) (hc0 : ¬cond0_0 i) (hc1 : cond0_1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S400x128 .bf16) (harg4 : arg4.IsWhole)
    (arg5 : Memref sig .tc .vmem S400x10000 .bf16) (harg5 : arg5.IsWhole) (arg6 : Memref sig .tc .vmem S10000x128 .f32) (harg6 : arg6.IsWhole)
    (x0 : Vec F S400x10000 .f32) (xs : Vec F S10000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ owns (c : Thread nD τ) arg6 fullShare xs
        ∗ (iprop(owns (c : Thread nD τ) arg1 fullShare x0 ∗ owns (c : Thread nD τ) arg4 fullShare (hop0 x0 xs) ∗ owns (c : Thread nD τ) arg5 fullShare (nar0 x0)
            ∗ owns (c : Thread nD τ) arg6 fullShare xs) -∗ K ⟨⟩))
      ⊢ wp frame (wpE (defs₀ (F := F)) Variants.none c none) E (cc0__hop1_kern i arg1 harg1 arg2 harg2 arg3 harg3 arg4 harg4 arg5 harg5 arg6 harg6) K := by
  simp only [cc0__hop1_kern_eq_skeleton]; unfold cc0__hop1_kern_skel
  unfold owns
  iintro ⟨⟨%f1, %hf1, H1⟩, ⟨%d4, %f4, -, H4⟩, ⟨%d5, %f5, -, H5⟩, ⟨%f6, %hf6, H6⟩, Hk⟩
  subst hf1; subst hf6
  sl_exec (disch := first | exact hc0 | exact hc1)
  sl_step
  iapply Hk
  isplitl [H1]
  · iexists f1; isplitr; · ipureintro; rfl
    iexact H1
  isplitl [H4]
  · iexists _; isplitr
    swap; · iexact H4
    ipureintro
    exact View.read_writes_eq_canon _ _ _ (cover_hop _)
  isplitl [H5]
  · iexists _; isplitr
    swap; · iexact H5
    ipureintro
    exact View.read_writes_eq_canon _ _ _ (cover_nar _)
  iexists f6; isplitr; · ipureintro; rfl
  iexact H6

set_option maxHeartbeats 1000000 in
/-- The second call's body at any point: the output stripe is stored whole from the four input blocks. -/
theorem run1 (c : Dev nD) (E : Set ℕ) (i : grid1.Coords)
    (arg1 : Memref sig .tc .vmem S1000x10000 .bf16) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1000x128 .f32) (harg5 : arg5.IsWhole)
    (x0 : Vec F S1000x10000 .bf16) (x1 : Vec F S10000x128 .bf16) (x2 : Vec F S1x128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1 x0 x1 x2 x3)) -∗ K ⟨⟩))
      ⊢ wp frame (wpE (defs₀ (F := F)) Variants.none c none) E (cc1__hop2_kern i arg1 harg1 arg2 harg2 arg3 harg3 arg4 harg4 arg5 harg5) K := by
  simp only [cc1__hop2_kern_eq_skeleton]; unfold cc1__hop2_kern_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Fr

end
-- ==== Proof.Kernel.Data.lean ====
import proofs.«164877_g18975165514648_fold_wed_m_529_18_alg».proof.Proof.Kernel.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the two calls, at the entry contents `V`

For the first call: each input's staging buffer keeps its block; output stripes hold, after a point `t ≥ 1`, the
first-hop stripe and the narrowed stripe of `adj`'s stripe `t - 1` (at point 0 they are idle and whatever is
written here for them is never consulted); the region invariant is the class's before point 0 and afterwards holds
the scratch at `seq · Wᵀ`. For the second call every point stores its output stripe and the invariant is the class's. -/

section
variable (V : (c : Dev nD) → (b : Ref sig .tc) → Buf (Elt F) ((c : Thread nD τ).loc b))

/-- Point 0 of the first call's grid. -/
def t00 : Fin cfg0.N := ⟨0, by have : cfg0.N = 26 := N_0; omega⟩

/-- What the scratch holds from point 0 on: `seq · Wᵀ` of the blocks resident at point 0 (the whole arrays). -/
def scrAt (c : Dev nD) : Vec F S10000x128 .f32 := scr0 (iblk0 V c 1 t00) (iblk0 V c 2 t00)

/-- The first call's invariant before position `n`: the class's at 0; afterwards the scratch at `scrAt`, the other
    scoped buffers at anything, the generator register at some state. -/
def PhiS (c : Dev nD) : ℕ → sProp 𝕄
  | 0 => Pipeline.ΦA spec0 c
  | _ + 1 => iprop(iprop(owns (c : Thread nD τ) scM fullShare (scrAt V c) ∗ others0 c) ∗ (∃ r, prngReg c r))

theorem PhiS_pos (c : Dev nD) (n : ℕ) (hz : n ≠ 0) :
    PhiS V c n = iprop(iprop(owns (c : Thread nD τ) scM fullShare (scrAt V c) ∗ others0 c) ∗ (∃ r, prngReg c r)) := by
  cases n with
  | zero => exact absurd rfl hz
  | succ n => rfl

/-- The first call's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hop0 (iblk0 V c 0 t) (scrAt V c)
    | ⟨4, _⟩ => nar0 (iblk0 V c 0 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = hop0 (iblk0 V c 0 t) (scrAt V c) := by dsimp only [dat0]
theorem after0_4 (c : Dev nD) (t : Fin cfg0.N) : (dat0 V c).after 4 t = nar0 (iblk0 V c 0 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- The second call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end

end Cert.Kernel.Fr

end
-- ==== Proof.Kernel.Body.lean ====
import proofs.«164877_g18975165514648_fold_wed_m_529_18_alg».proof.Proof.Kernel.Runs
import proofs.«164877_g18975165514648_fold_wed_m_529_18_alg».proof.Proof.Kernel.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligations

At a point the pipeline hands the body the invariant, what the core owes, and each window's current staging buffer.
For the first call the point is either 0 — the invariant is the class's, the scratch is at anything and comes back at
`seq · Wᵀ`; the two output stripes are idle and go back as found — or later — the scratch is at `seq · Wᵀ` and comes
back so; both output stripes are stored. -/

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) from rfl, PhiS_pos V c _ (Nat.succ_ne_zero _)]
  rw [show (dat0 V c).Φ t.castSucc = PhiS V c t.val from by dsimp only [dat0]; simp only [Fin.coe_castSucc]]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases hz : t.val = 0
  · obtain rfl : t = t00 := Fin.ext hz
    rw [Dat.leavesExact_idle (dat0 V c) 3 t00 (idle0_3 t00 hz) (noFlush0_3 t00 hz)]
    rw [Dat.leavesExact_idle (dat0 V c) 4 t00 (idle0_4 t00 hz) (noFlush0_4 t00 hz)]
    rw [show PhiS V c (t00 : Fin cfg0.N).val = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩⟩
    iapply (run0_first c Set.univ (grid0.coords t00) ((hcond0_0 t00).mpr hz) (fun h => (hcond0_1 t00).mp h hz) _ _ _ _ _ _ _ _ _ _ _ _
      (iblk0 V c 1 t00) (iblk0 V c 2 t00) _)
    isplitl [H1]; · iexact H1
    isplitl [H2]; · iexact H2
    isplitl [HS]; · iexact HS
    iintro ⟨H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexists _; iexact H3
    iexists _; iexact H4
  · rw [show (dat0 V c).leavesExact 3 t = owns (c : Thread nD τ) (ms0_3 t) fullShare ((dat0 V c).after 3 t) from by
      unfold Dat.leavesExact; rw [live0_3 t hz], after0_3]
    rw [show (dat0 V c).leavesExact 4 t = owns (c : Thread nD τ) (ms0_4 t) fullShare ((dat0 V c).after 4 t) from by
      unfold Dat.leavesExact; rw [live0_4 t hz], after0_4]
    rw [PhiS_pos V c _ hz]
    iintro ⟨⟨⟨HS, Hoth⟩, Hg⟩, Ho, ⟨%d0, H0⟩, ⟨%d1, H1⟩, ⟨%d2, H2⟩, ⟨%d3, H3⟩, ⟨%d4, H4⟩⟩
    iapply (run0_later c Set.univ (grid0.coords t) (fun h => hz ((hcond0_0 t).mp h)) ((hcond0_1 t).mpr hz) _ _ _ _ _ _ _ _ _ _ _ _
      (iblk0 V c 0 t) (scrAt V c) _)
    isplitl [H0]; · iexact H0
    isplitl [H3]; · iexists _; iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The first call's body obligation. -/
theorem body_obligation0 (c : Dev nD) : BodyObligation (dat0 (F := F) V c) (defs₀ (F := F)) Variants.none () Set.univ := fun t => by
  rw [bigSep_W0, bigSep_W0]
  exact sound_body0 V c t

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The second call's body obligation. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.Kernel.Launch.lean ====
import proofs.«164877_g18975165514648_fold_wed_m_529_18_alg».proof.Proof.Kernel.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

`@main` is: the first call, two host reshapes (of `bias` and of the slope), the second call. Between items the core
holds every unscoped buffer at a known valuation: the launch memory; then the first call's arrays at what its
write-backs leave; then the reshapes applied; then the second call's arrays at what its write-backs leave. -/

variable (m : (ℓ : Loc nD τ sig) → Buf (Elt F) ℓ) (ρ : Dev nD → PrngReg)

/-- Core `c`'s buffers at launch (the first call's entry). -/
abbrev W0 : Dev nD → Valuation τ sig (Elt F) := fun c b => m (c, b)
abbrev V0 : (c : Dev nD) → (b : Ref sig .tc) → Buf (Elt F) ((c : Thread nD τ).loc b) := fun c b => W0 m c b
/-- At the first call's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes (the second call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At the second call's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result is the second call's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 1).trans (((dat0 (V0 m) c).arrAt_in 1 rfl _).trans (A_eq0 (V0 m) c 1))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 2).trans (((dat0 (V0 m) c).arrAt_in 2 rfl _).trans (A_eq0 (V0 m) c 2))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg4) := W1_of_ne m c main_arg4 (by decide)
    _ = m ((c : Thread nD τ).loc main_arg4) := rfl
theorem W3_main_v3 (c : Dev nD) : W3 m c (Proc.devRef .tc main_v3) = (dat1 (V2 m) c).arrAt 4 cfg1.N := W3_arr m c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem reshapes_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- After any point but 0 the first call's invariant gives the class's back: the scratch's contents are forgotten. -/
theorem Phi_out0 (c : Dev nD) (n : ℕ) (hn : n ≠ 0) : PhiS (V0 m) c n ⊢ Pipeline.ΦA spec0 c := by
  rw [PhiS_pos (V0 m) c n hn, PhiA0_eq]
  iintro ⟨⟨HS, Hoth⟩, Hg⟩
  isplitl [HS Hoth]
  · isplitl [HS]
    · iexists _; iexact HS
    iexact Hoth
  iexact Hg

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hlast : (pdats m 0 c).Φ (Fin.last _) ⊢ Pipeline.ΦA spec0 c := by
      rw [show (pdats m 0 c).Φ (Fin.last _) = PhiS (V0 m) c cfg0.N from rfl]
      exact Phi_out0 m c cfg0.N (by have : cfg0.N = 26 := N_0; omega)
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub reshapes_fresh (W1 m)),
    .region (reg1 m) ]
theorem main_run (c : Dev nD) : main (F := F) c = Pipeline.Seg.run (segs m) := (main_chain c).trans (by chain_rfl)

set_option backward.isDefEq.respectTransparency.types false in
/-- Every weakly fair execution of @main terminates, nothing faulting; the result buffer ends at what the second
    call's write-backs leave, and every argument as launched. -/
theorem run_main : θ_run defs (onTc (τ := τ) (main (F := F))) ⟨m, fun _ => 0, ρ⟩ (fun r => ∀ c : Dev nD,
      r.2.mem ((c.tc : Thread nD τ).loc main_v3) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.Kernel.Fr

end
-- ==== Proof.KernelIdeal.Base.lean ====
import proofs.«164877_g18975165514648_fold_wed_m_529_18_alg».proof.Proof.Gen.KernelIdeal.Launch
import proofs.«164877_g18975165514648_fold_wed_m_529_18_alg».proof.Proof.Gen.KernelIdeal.Skeleton
import proofs.«164877_g18975165514648_fold_wed_m_529_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What both regions' proofs share

The first call walks 26 grid points over 25 row stripes of `adj`: point 0 fills a scratch with `seq · Wᵀ`;
point `t ≥ 1` reads stripe `t - 1` and writes that stripe of the narrowed copy of `adj` and of the first hop
`adj · scratch`. The second call walks 10 stripes of 1000 rows and writes `prelu (adj · hop₁ + bias)`.
Everything here is stated at a parameter `V`: the core's buffer contents when the region is entered. -/

section
variable (V : (c : Dev nD) → (b : Ref sig .tc) → Buf (Elt F) ((c : Thread nD τ).loc b))

/-- Window `w`'s block of the first call at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second call at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
end

/-! ## The whole-buffer rectangles the bodies load and store through -/

abbrev rSeq : Rect S10000x128 := Rect.unit (s := S10000x128) ![0, 0] S10000x128.size inb_S10000x128_S10000x128_0_0
abbrev rW : Rect S128x128 := Rect.unit (s := S128x128) ![0, 0] S128x128.size inb_S128x128_S128x128_0_0
abbrev rStripe : Rect S400x10000 := Rect.unit (s := S400x10000) ![0, 0] S400x10000.size inb_S400x10000_S400x10000_0_0
abbrev rHop : Rect S400x128 := Rect.unit (s := S400x128) ![0, 0] S400x128.size inb_S400x128_S400x128_0_0
abbrev rStripe2 : Rect S1000x10000 := Rect.unit (s := S1000x10000) ![0, 0] S1000x10000.size inb_S1000x10000_S1000x10000_0_0
abbrev rBias : Rect S1x128 := Rect.unit (s := S1x128) ![0, 0] S1x128.size inb_S1x128_S1x128_0_0
abbrev rSlope : Rect S1x1 := Rect.unit (s := S1x1) ![0, 0] S1x1.size inb_S1x1_S1x1_0_0
abbrev rOut : Rect S1000x128 := Rect.unit (s := S1000x128) ![0, 0] S1000x128.size inb_S1000x128_S1000x128_0_0

/-! ## What each store leaves, as one covering piece -/

/-- The scratch after point 0: `seq · Wᵀ` of the two input blocks. -/
def scr0 (xseq : Vec F S10000x128 .f32) (xw : Vec F S128x128 .f32) : Vec F S10000x128 .f32 :=
  View.canon [⟨rSeq, k0_pay1 (View.ld xseq rSeq) (View.ld xw rW)⟩]

/-- The first-hop stripe a later point stores: the `adj` stripe times the scratch, narrowed. -/
def hop0 (xadj : Vec F S400x10000 .f32) (xs : Vec F S10000x128 .f32) : Vec F S400x128 .bf16 :=
  View.canon [⟨rHop, k0_pay3 (View.ld xadj rStripe) (View.ld xs rSeq)⟩]

/-- The narrowed copy of the `adj` stripe a later point stores. -/
def nar0 (xadj : Vec F S400x10000 .f32) : Vec F S400x10000 .bf16 :=
  View.canon [⟨rStripe, k0_pay2 (View.ld xadj rStripe)⟩]

/-- The output stripe a point of the second call stores. -/
def out1 (xa : Vec F S1000x10000 .bf16) (xh : Vec F S10000x128 .bf16) (xb : Vec F S1x128 .f32) (xp : Vec F S1x1 .f32) : Vec F S1000x128 .f32 :=
  View.canon [⟨rOut, k1_pay1 (View.ld xa rStripe2) (View.ld xh rSeq) (View.ld xb rBias) (View.ld xp rSlope)⟩]

theorem cover_scr (p : Vec F S10000x128 .f32) (y : S10000x128.Idx) :
    ∃ pc ∈ ([⟨rSeq, p⟩] : List (View.Piece (Elt F) S10000x128 .f32)), y ∈ pc.1.set :=
  View.cover_of_tiled [⟨rSeq, p⟩] S10000x128.size (by rfl) y
theorem cover_hop (p : Vec F S400x128 .bf16) (y : S400x128.Idx) :
    ∃ pc ∈ ([⟨rHop, p⟩] : List (View.Piece (Elt F) S400x128 .bf16)), y ∈ pc.1.set :=
  View.cover_of_tiled [⟨rHop, p⟩] S400x128.size (by rfl) y
theorem cover_nar (p : Vec F S400x10000 .bf16) (y : S400x10000.Idx) :
    ∃ pc ∈ ([⟨rStripe, p⟩] : List (View.Piece (Elt F) S400x10000 .bf16)), y ∈ pc.1.set :=
  View.cover_of_tiled [⟨rStripe, p⟩] S400x10000.size (by rfl) y
theorem cover_out (p : Vec F S1000x128 .f32) (y : S1000x128.Idx) :
    ∃ pc ∈ ([⟨rOut, p⟩] : List (View.Piece (Elt F) S1000x128 .f32)), y ∈ pc.1.set :=
  View.cover_of_tiled [⟨rOut, p⟩] S1000x128.size (by rfl) y

/-! ## The first call's two branches over the grid -/

/-- The first branch (fill the scratch) as the body computes it from the grid coordinate. -/
abbrev cond0_0 (i : grid0.Coords) : Prop := (Scalar.cmpi .ne (Scalar.extui (Scalar.cmpi .eq (BitVec.ofNat 32 (i 0).val) 0#32)) 0#32) = 1#1
/-- It is taken at point 0 only. -/
theorem hcond0_0 : ∀ t : Fin cfg0.N, cond0_0 (grid0.coords t) ↔ t.val = 0 :=
  (by decide +kernel : ∀ t : Fin grid0.N, cond0_0 (grid0.coords t) ↔ t.val = 0)
/-- The second branch (one stripe of work). -/
abbrev cond0_1 (i : grid0.Coords) : Prop := k0_cond2 i = 1#1
/-- It is taken at every point but 0. -/
theorem hcond0_1 : ∀ t : Fin cfg0.N, cond0_1 (grid0.coords t) ↔ t.val ≠ 0 :=
  (by decide +kernel : ∀ t : Fin grid0.N, cond0_1 (grid0.coords t) ↔ t.val ≠ 0)

/-! ## Where the first call's windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- At point 0 nothing is stored into either output stripe, and neither is written back there. -/
theorem idle0_3 : ∀ t : Fin cfg0.N, t.val = 0 → cfg0.idle 3 (grid0.coords t) = true := by decide +kernel
theorem noFlush0_3 : ∀ t : Fin cfg0.N, t.val = 0 → (cfg0.win 3).flush t = false := by decide +kernel
theorem idle0_4 : ∀ t : Fin cfg0.N, t.val = 0 → cfg0.idle 4 (grid0.coords t) = true := by decide +kernel
theorem noFlush0_4 : ∀ t : Fin cfg0.N, t.val = 0 → (cfg0.win 4).flush t = false := by decide +kernel
theorem live0_3 : ∀ t : Fin cfg0.N, t.val ≠ 0 → cfg0.idle 3 (grid0.coords t) = false := by decide +kernel
theorem live0_4 : ∀ t : Fin cfg0.N, t.val ≠ 0 → cfg0.idle 4 (grid0.coords t) = false := by decide +kernel
theorem live1 : ∀ (w : Fin 5) (t : Fin cfg1.N), cfg1.idle w (grid1.coords t) = false := by decide +kernel

/-! ## The staging memrefs at a point, and the scratch -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x10000 .bf16 := win0_4.stage (cfg0.slots t 4)
abbrev hs0_4 (t : Fin cfg0.N) : (ms0_4 t).IsWhole := hstage0_4 ((cfg0.slots t 4).cast nbuf0_4)
/-- The scratch the first call keeps from point to point. -/
abbrev scM : Memref sig .tc .vmem S10000x128 .f32 := Memref.whole cc0_scratch0

abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x128 .f32 := win1_4.stage (cfg1.slots t 4)
abbrev hs1_4 (t : Fin cfg1.N) : (ms1_4 t).IsWhole := hstage1_4 ((cfg1.slots t 4).cast nbuf1_4)

/-- The first call's scoped buffers other than the scratch (the second call's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant of the first call, with the scratch split off as a memref owned at some contents. -/
theorem PhiA0_eq (c : Dev nD) :
    (Pipeline.ΦA spec0 c : sProp 𝕄)
      = iprop(iprop((∃ d, owns (c : Thread nD τ) scM fullShare d) ∗ others0 c) ∗ (∃ r, prngReg c r)) := by
  unfold Pipeline.ΦA others0; rw [scopedRest0_eq]; simp only [scM, owns_whole]; try rfl

end Cert.KernelIdeal.Fr

end
-- ==== Proof.KernelIdeal.Runs.lean ====
import proofs.«164877_g18975165514648_fold_wed_m_529_18_alg».proof.Proof.KernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two bodies on arbitrary whole staging memrefs

Each body is run once per branch assignment the grid meets. Inputs are held at read contents and come back as they
were; a buffer the branch stores whole comes back at that store's covering piece; a buffer the branch does not store
comes back untouched. -/

set_option maxHeartbeats 1000000 in
/-- Point 0 of the first call: only the scratch is stored, at `seq · Wᵀ` of the two resident blocks; the stripe input
    and both output stripes are not touched. -/
theorem run0_first (c : Dev nD) (E : Set ℕ) (i : grid0.Coords) (hc0 : cond0_0 i) (hc1 : ¬cond0_1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S400x128 .bf16) (harg4 : arg4.IsWhole)
    (arg5 : Memref sig .tc .vmem S400x10000 .bf16) (harg5 : arg5.IsWhole) (arg6 : Memref sig .tc .vmem S10000x128 .f32) (harg6 : arg6.IsWhole)
    (x1 : Vec F S10000x128 .f32) (x2 : Vec F S128x128 .f32) (K : PUnit → sProp 𝕄) :
    iprop(owns (c : Thread nD τ) arg2 fullShare x1 ∗ owns (c : Thread nD τ) arg3 fullShare x2 ∗ (∃ d, owns (c : Thread nD τ) arg6 fullShare d)
        ∗ (iprop(owns (c : Thread nD τ) arg2 fullShare x1 ∗ owns (c : Thread nD τ) arg3 fullShare x2 ∗ owns (c : Thread nD τ) arg6 fullShare (scr0 x1 x2)) -∗ K ⟨⟩))
      ⊢ wp frame (wpE (defs₀ (F := F)) Variants.none c none) E (cc0__hop1_kern i arg1 harg1 arg2 harg2 arg3 harg3 arg4 harg4 arg5 harg5 arg6 harg6) K := by
  simp only [cc0__hop1_kern_eq_skeleton]; unfold cc0__hop1_kern_skel
  unfold owns
  iintro ⟨⟨%f1, %hf1, H1⟩, ⟨%f2, %hf2, H2⟩, ⟨%d6, %f6, -, H6⟩, Hk⟩
  subst hf1; subst hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  iexists _; isplitr
  swap; · iexact H6
  ipureintro
  exact View.read_writes_eq_canon _ _ _ (cover_scr _)

set_option maxHeartbeats 1000000 in
/-- A later point of the first call: the narrowed stripe and the first-hop stripe are stored whole; the scratch is only
    read and comes back as it was. -/
theorem run0_later (c : Dev nD) (E : Set ℕ) (i : grid0.Coords) (hc0 : ¬cond0_0 i) (hc1 : cond0_1 i)
    (arg1 : Memref sig .tc .vmem S400x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S400x128 .bf16) (harg4 : arg4.IsWhole)
    (arg5 : Memref sig .tc .vmem S400x10000 .bf16) (harg5 : arg5.IsWhole) (arg6 : Memref sig .tc .vmem S10000x128 .f32) (harg6 : arg6.IsWhole)
    (x0 : Vec F S400x10000 .f32) (xs : Vec F S10000x128 .f32) (K : PUnit → sProp 𝕄) :
    iprop(owns (c : Thread nD τ) arg1 fullShare x0 ∗ (∃ d, owns (c : Thread nD τ) arg4 fullShare d) ∗ (∃ d, owns (c : Thread nD τ) arg5 fullShare d)
        ∗ owns (c : Thread nD τ) arg6 fullShare xs
        ∗ (iprop(owns (c : Thread nD τ) arg1 fullShare x0 ∗ owns (c : Thread nD τ) arg4 fullShare (hop0 x0 xs) ∗ owns (c : Thread nD τ) arg5 fullShare (nar0 x0)
            ∗ owns (c : Thread nD τ) arg6 fullShare xs) -∗ K ⟨⟩))
      ⊢ wp frame (wpE (defs₀ (F := F)) Variants.none c none) E (cc0__hop1_kern i arg1 harg1 arg2 harg2 arg3 harg3 arg4 harg4 arg5 harg5 arg6 harg6) K := by
  simp only [cc0__hop1_kern_eq_skeleton]; unfold cc0__hop1_kern_skel
  unfold owns
  iintro ⟨⟨%f1, %hf1, H1⟩, ⟨%d4, %f4, -, H4⟩, ⟨%d5, %f5, -, H5⟩, ⟨%f6, %hf6, H6⟩, Hk⟩
  subst hf1; subst hf6
  sl_exec (disch := first | exact hc0 | exact hc1)
  sl_step
  iapply Hk
  isplitl [H1]
  · iexists f1; isplitr; · ipureintro; rfl
    iexact H1
  isplitl [H4]
  · iexists _; isplitr
    swap; · iexact H4
    ipureintro
    exact View.read_writes_eq_canon _ _ _ (cover_hop _)
  isplitl [H5]
  · iexists _; isplitr
    swap; · iexact H5
    ipureintro
    exact View.read_writes_eq_canon _ _ _ (cover_nar _)
  iexists f6; isplitr; · ipureintro; rfl
  iexact H6

set_option maxHeartbeats 1000000 in
/-- The second call's body at any point: the output stripe is stored whole from the four input blocks. -/
theorem run1 (c : Dev nD) (E : Set ℕ) (i : grid1.Coords)
    (arg1 : Memref sig .tc .vmem S1000x10000 .bf16) (harg1 : arg1.IsWhole) (arg2 : Memref sig .tc .vmem S10000x128 .bf16) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1000x128 .f32) (harg5 : arg5.IsWhole)
    (x0 : Vec F S1000x10000 .bf16) (x1 : Vec F S10000x128 .bf16) (x2 : Vec F S1x128 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1 x0 x1 x2 x3)) -∗ K ⟨⟩))
      ⊢ wp frame (wpE (defs₀ (F := F)) Variants.none c none) E (cc1__hop2_kern i arg1 harg1 arg2 harg2 arg3 harg3 arg4 harg4 arg5 harg5) K := by
  simp only [cc1__hop2_kern_eq_skeleton]; unfold cc1__hop2_kern_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Fr

end
-- ==== Proof.KernelIdeal.Data.lean ====
import proofs.«164877_g18975165514648_fold_wed_m_529_18_alg».proof.Proof.KernelIdeal.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the two calls, at the entry contents `V`

For the first call: each input's staging buffer keeps its block; output stripes hold, after a point `t ≥ 1`, the
first-hop stripe and the narrowed stripe of `adj`'s stripe `t - 1` (at point 0 they are idle and whatever is
written here for them is never consulted); the region invariant is the class's before point 0 and afterwards holds
the scratch at `seq · Wᵀ`. For the second call every point stores its output stripe and the invariant is the class's. -/

section
variable (V : (c : Dev nD) → (b : Ref sig .tc) → Buf (Elt F) ((c : Thread nD τ).loc b))

/-- Point 0 of the first call's grid. -/
def t00 : Fin cfg0.N := ⟨0, by have : cfg0.N = 26 := N_0; omega⟩

/-- What the scratch holds from point 0 on: `seq · Wᵀ` of the blocks resident at point 0 (the whole arrays). -/
def scrAt (c : Dev nD) : Vec F S10000x128 .f32 := scr0 (iblk0 V c 1 t00) (iblk0 V c 2 t00)

/-- The first call's invariant before position `n`: the class's at 0; afterwards the scratch at `scrAt`, the other
    scoped buffers at anything, the generator register at some state. -/
def PhiS (c : Dev nD) : ℕ → sProp 𝕄
  | 0 => Pipeline.ΦA spec0 c
  | _ + 1 => iprop(iprop(owns (c : Thread nD τ) scM fullShare (scrAt V c) ∗ others0 c) ∗ (∃ r, prngReg c r))

theorem PhiS_pos (c : Dev nD) (n : ℕ) (hz : n ≠ 0) :
    PhiS V c n = iprop(iprop(owns (c : Thread nD τ) scM fullShare (scrAt V c) ∗ others0 c) ∗ (∃ r, prngReg c r)) := by
  cases n with
  | zero => exact absurd rfl hz
  | succ n => rfl

/-- The first call's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => hop0 (iblk0 V c 0 t) (scrAt V c)
    | ⟨4, _⟩ => nar0 (iblk0 V c 0 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = hop0 (iblk0 V c 0 t) (scrAt V c) := by dsimp only [dat0]
theorem after0_4 (c : Dev nD) (t : Fin cfg0.N) : (dat0 V c).after 4 t = nar0 (iblk0 V c 0 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- The second call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

end

end Cert.KernelIdeal.Fr

end
-- ==== Proof.KernelIdeal.Body.lean ====
import proofs.«164877_g18975165514648_fold_wed_m_529_18_alg».proof.Proof.KernelIdeal.Runs
import proofs.«164877_g18975165514648_fold_wed_m_529_18_alg».proof.Proof.KernelIdeal.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body obligations

At a point the pipeline hands the body the invariant, what the core owes, and each window's current staging buffer.
For the first call the point is either 0 — the invariant is the class's, the scratch is at anything and comes back at
`seq · Wᵀ`; the two output stripes are idle and go back as found — or later — the scratch is at `seq · Wᵀ` and comes
back so; both output stripes are stored. -/

section
variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) from rfl, PhiS_pos V c _ (Nat.succ_ne_zero _)]
  rw [show (dat0 V c).Φ t.castSucc = PhiS V c t.val from by dsimp only [dat0]; simp only [Fin.coe_castSucc]]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  by_cases hz : t.val = 0
  · obtain rfl : t = t00 := Fin.ext hz
    rw [Dat.leavesExact_idle (dat0 V c) 3 t00 (idle0_3 t00 hz) (noFlush0_3 t00 hz)]
    rw [Dat.leavesExact_idle (dat0 V c) 4 t00 (idle0_4 t00 hz) (noFlush0_4 t00 hz)]
    rw [show PhiS V c (t00 : Fin cfg0.N).val = Pipeline.ΦA spec0 c from rfl, PhiA0_eq]
    iintro ⟨⟨⟨HS, Hoth⟩, Hg⟩, Ho, ⟨%d0, H0⟩, ⟨%d1, H1⟩, ⟨%d2, H2⟩, ⟨%d3, H3⟩, ⟨%d4, H4⟩⟩
    iapply (run0_first c Set.univ (grid0.coords t00) ((hcond0_0 t00).mpr hz) (fun h => (hcond0_1 t00).mp h hz) _ _ _ _ _ _ _ _ _ _ _ _
      (iblk0 V c 1 t00) (iblk0 V c 2 t00) _)
    isplitl [H1]; · iexact H1
    isplitl [H2]; · iexact H2
    isplitl [HS]; · iexact HS
    iintro ⟨H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexists _; iexact H3
    iexists _; iexact H4
  · rw [show (dat0 V c).leavesExact 3 t = owns (c : Thread nD τ) (ms0_3 t) fullShare ((dat0 V c).after 3 t) from by
      unfold Dat.leavesExact; rw [live0_3 t hz], after0_3]
    rw [show (dat0 V c).leavesExact 4 t = owns (c : Thread nD τ) (ms0_4 t) fullShare ((dat0 V c).after 4 t) from by
      unfold Dat.leavesExact; rw [live0_4 t hz], after0_4]
    rw [PhiS_pos V c _ hz]
    iintro ⟨⟨⟨HS, Hoth⟩, Hg⟩, Ho, ⟨%d0, H0⟩, ⟨%d1, H1⟩, ⟨%d2, H2⟩, ⟨%d3, H3⟩, ⟨%d4, H4⟩⟩
    iapply (run0_later c Set.univ (grid0.coords t) (fun h => hz ((hcond0_0 t).mp h)) ((hcond0_1 t).mpr hz) _ _ _ _ _ _ _ _ _ _ _ _
      (iblk0 V c 0 t) (scrAt V c) _)
    isplitl [H0]; · iexact H0
    isplitl [H3]; · iexists _; iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The first call's body obligation. -/
theorem body_obligation0 (c : Dev nD) : BodyObligation (dat0 (F := F) V c) (defs₀ (F := F)) Variants.none () Set.univ := fun t => by
  rw [bigSep_W0, bigSep_W0]
  exact sound_body0 V c t

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The second call's body obligation. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KernelIdeal.Launch.lean ====
import proofs.«164877_g18975165514648_fold_wed_m_529_18_alg».proof.Proof.KernelIdeal.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

`@main` is: the first call, two host reshapes (of `bias` and of the slope), the second call. Between items the core
holds every unscoped buffer at a known valuation: the launch memory; then the first call's arrays at what its
write-backs leave; then the reshapes applied; then the second call's arrays at what its write-backs leave. -/

variable (m : (ℓ : Loc nD τ sig) → Buf (Elt F) ℓ) (ρ : Dev nD → PrngReg)

/-- Core `c`'s buffers at launch (the first call's entry). -/
abbrev W0 : Dev nD → Valuation τ sig (Elt F) := fun c b => m (c, b)
abbrev V0 : (c : Dev nD) → (b : Ref sig .tc) → Buf (Elt F) ((c : Thread nD τ).loc b) := fun c b => W0 m c b
/-- At the first call's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes (the second call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At the second call's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched, and the result is the second call's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := (W1_arr m c 1).trans (((dat0 (V0 m) c).arrAt_in 1 rfl _).trans (A_eq0 (V0 m) c 1))
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0 m) c).arrAt_in 0 rfl _).trans (A_eq0 (V0 m) c 0))
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 2).trans (((dat0 (V0 m) c).arrAt_in 2 rfl _).trans (A_eq0 (V0 m) c 2))
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg4) := W1_of_ne m c main_arg4 (by decide)
    _ = m ((c : Thread nD τ).loc main_arg4) := rfl
theorem W3_main_v3 (c : Dev nD) : W3 m c (Proc.devRef .tc main_v3) = (dat1 (V2 m) c).arrAt 4 cfg1.N := W3_arr m c 4

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem reshapes_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- After any point but 0 the first call's invariant gives the class's back: the scratch's contents are forgotten. -/
theorem Phi_out0 (c : Dev nD) (n : ℕ) (hn : n ≠ 0) : PhiS (V0 m) c n ⊢ Pipeline.ΦA spec0 c := by
  rw [PhiS_pos (V0 m) c n hn, PhiA0_eq]
  iintro ⟨⟨HS, Hoth⟩, Hg⟩
  isplitl [HS Hoth]
  · isplitl [HS]
    · iexists _; iexact HS
    iexact Hoth
  iexact Hg

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hlast : (pdats m 0 c).Φ (Fin.last _) ⊢ Pipeline.ΦA spec0 c := by
      rw [show (pdats m 0 c).Φ (Fin.last _) = PhiS (V0 m) c cfg0.N from rfl]
      exact Phi_out0 m c cfg0.N (by have : cfg0.N = 26 := N_0; omega)
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub reshapes_fresh (W1 m)),
    .region (reg1 m) ]
theorem main_run (c : Dev nD) : main (F := F) c = Pipeline.Seg.run (segs m) := (main_chain c).trans (by chain_rfl)

set_option backward.isDefEq.respectTransparency.types false in
/-- Every weakly fair execution of @main terminates, nothing faulting; the result buffer ends at what the second
    call's write-backs leave, and every argument as launched. -/
theorem run_main : θ_run defs (onTc (τ := τ) (main (F := F))) ⟨m, fun _ => 0, ρ⟩ (fun r => ∀ c : Dev nD,
      r.2.mem ((c.tc : Thread nD τ).loc main_v3) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_main m ρ)

end Cert.KernelIdeal.Fr

end
-- ==== Proof.KernelIdeal.ValDots.lean ====
import proofs.«164877_g18975165514648_fold_wed_m_529_18_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem

/-! # The stored values, read at an index

Over the extended reals a change of float format is the identity and a matrix product into a zero accumulator is the
plain sum of products over the contracted axis. So, index by index: the scratch is `∑ₚ seq[r,p] · W[c,p]`; a first-hop
stripe is `∑ₖ stripe[r,k] · scratch[k,c]`; the narrowed stripe is the stripe; an output stripe is
`prelu (∑ₖ a[r,k] · h[k,c] + bias[c])` with the slope read at its one cell. -/

/-- The index `(r, k)` of a `10000 × 128` array from an index `i = (r, _)` and `k`. -/
abbrev seqAt (i : S10000x128.Idx) (k : Fin 128) : S10000x128.Idx := fun a => match a with
  | ⟨0, _⟩ => ⟨(i 0).val, (i 0).isLt⟩
  | ⟨1, _⟩ => ⟨k.val, k.isLt⟩
/-- The index `(c, k)` of the weight from an index `i = (_, c)` and `k`. -/
abbrev wAt (i : S10000x128.Idx) (k : Fin 128) : S128x128.Idx := fun a => match a with
  | ⟨0, _⟩ => ⟨(i 1).val, (i 1).isLt⟩
  | ⟨1, _⟩ => ⟨k.val, k.isLt⟩
/-- The index `(r, k)` of a `400 × 10000` stripe. -/
abbrev stripeAt (j : S400x128.Idx) (k : Fin 10000) : S400x10000.Idx := fun a => match a with
  | ⟨0, _⟩ => ⟨(j 0).val, (j 0).isLt⟩
  | ⟨1, _⟩ => ⟨k.val, k.isLt⟩
/-- The index `(k, c)` of a `10000 × 128` array from a stripe index `j = (_, c)`. -/
abbrev colAt (j : S400x128.Idx) (k : Fin 10000) : S10000x128.Idx := fun a => match a with
  | ⟨0, _⟩ => ⟨k.val, k.isLt⟩
  | ⟨1, _⟩ => ⟨(j 1).val, (j 1).isLt⟩
abbrev stripe2At (j : S1000x128.Idx) (k : Fin 10000) : S1000x10000.Idx := fun a => match a with
  | ⟨0, _⟩ => ⟨(j 0).val, (j 0).isLt⟩
  | ⟨1, _⟩ => ⟨k.val, k.isLt⟩
abbrev col2At (j : S1000x128.Idx) (k : Fin 10000) : S10000x128.Idx := fun a => match a with
  | ⟨0, _⟩ => ⟨k.val, k.isLt⟩
  | ⟨1, _⟩ => ⟨(j 1).val, (j 1).isLt⟩
/-- The bias row's index `(0, c)`. -/
abbrev biasAt (j : S1000x128.Idx) : S1x128.Idx := fun a => match a with
  | ⟨0, _⟩ => ⟨0, Nat.one_pos⟩
  | ⟨1, _⟩ => ⟨(j 1).val, (j 1).isLt⟩
/-- The slope's one cell. -/
abbrev slopeAt : S1x1.Idx := fun a => ⟨(![0, 0] : Fin 2 → Nat) a, inpos_S1x1_p0_0 a⟩

/-! ## The scratch: `seq · Wᵀ` (both operands contracted on their second axis) -/

theorem scr_l0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem scr_l1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem scr_r0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem scr_r1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

theorem pay1_apply (x : Vec Ideal S10000x128 .f32) (w : Vec Ideal S128x128 .f32) (i : S10000x128.Idx) :
    k0_pay1 (F := Ideal) x w i = ∑ k : Fin 128, x (seqAt i k) * w (wAt i k) := by
  unfold k0_pay1
  rw [shapeCast_self]
  simp only [matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx i ((ValueIdx.contrEquiv1 dot_S10000x128_S128x128_S10000x128_1_1_0_0_n_n 128 rfl rfl).symm k) = seqAt i k := funext fun a => Fin.ext (by
    match a with
    | ⟨0, _⟩ => exact scr_l0 _ _
    | ⟨1, _⟩ => exact (scr_l1 _ _).trans hk)
  have er : dot_S10000x128_S128x128_S10000x128_1_1_0_0_n_n.rhsIdx i ((ValueIdx.contrEquiv1 dot_S10000x128_S128x128_S10000x128_1_1_0_0_n_n 128 rfl rfl).symm k) = wAt i k := funext fun a => Fin.ext (by
    match a with
    | ⟨0, _⟩ => exact scr_r0 _ _
    | ⟨1, _⟩ => exact (scr_r1 _ _).trans hk)
  rw [el, er]

/-! ## A first-hop stripe: stripe · scratch -/

theorem hop_l0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem hop_l1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem hop_r0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem hop_r1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

theorem pay3_apply (x : Vec Ideal S400x10000 .f32) (s : Vec Ideal S10000x128 .f32) (j : S400x128.Idx) :
    k0_pay3 (F := Ideal) x s j = ∑ k : Fin 10000, x (stripeAt j k) * s (colAt j k) := by
  unfold k0_pay3
  rw [ValueIdx.truncf_apply]
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx j ((ValueIdx.contrEquiv1 dot_S400x10000_S10000x128_S400x128_1_0_0_1_n_n 10000 rfl rfl).symm k) = stripeAt j k := funext fun a => Fin.ext (by
    match a with
    | ⟨0, _⟩ => exact hop_l0 _ _
    | ⟨1, _⟩ => exact (hop_l1 _ _).trans hk)
  have er : dot_S400x10000_S10000x128_S400x128_1_0_0_1_n_n.rhsIdx j ((ValueIdx.contrEquiv1 dot_S400x10000_S10000x128_S400x128_1_0_0_1_n_n 10000 rfl rfl).symm k) = colAt j k := funext fun a => Fin.ext (by
    match a with
    | ⟨0, _⟩ => exact (hop_r0 _ _).trans hk
    | ⟨1, _⟩ => exact hop_r1 _ _)
  rw [el, er]

/-- The narrowed stripe is the stripe. -/
theorem pay2_apply (x : Vec Ideal S400x10000 .f32) (j : S400x10000.Idx) : k0_pay2 (F := Ideal) x j = x j := rfl

/-! ## An output stripe -/

theorem out_l0 (i : S1000x128.Idx) (q : dot_S1000x10000_S10000x128_S1000x128_1_0_0_1_n_n.contr.Idx) :
    (dot_S1000x10000_S10000x128_S1000x128_1_0_0_1_n_n.lhsIdx i q 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem out_l1 (i : S1000x128.Idx) (q : dot_S1000x10000_S10000x128_S1000x128_1_0_0_1_n_n.contr.Idx) :
    (dot_S1000x10000_S10000x128_S1000x128_1_0_0_1_n_n.lhsIdx i q 1).val = (q ⟨0, by decide⟩).val :=
  dot_S1000x10000_S10000x128_S1000x128_1_0_0_1_n_n.lhsIdx_val_of_single rfl i q
theorem out_r0 (i : S1000x128.Idx) (q : dot_S1000x10000_S10000x128_S1000x128_1_0_0_1_n_n.contr.Idx) :
    (dot_S1000x10000_S10000x128_S1000x128_1_0_0_1_n_n.rhsIdx i q 0).val = (q ⟨0, by decide⟩).val :=
  dot_S1000x10000_S10000x128_S1000x128_1_0_0_1_n_n.rhsIdx_val_of_single rfl i q
theorem out_r1 (i : S1000x128.Idx) (q : dot_S1000x10000_S10000x128_S1000x128_1_0_0_1_n_n.contr.Idx) :
    (dot_S1000x10000_S10000x128_S1000x128_1_0_0_1_n_n.rhsIdx i q 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

/-- The second call's matrix product at an index. -/
theorem dot3_apply (a : Vec Ideal S1000x10000 .bf16) (h : Vec Ideal S10000x128 .bf16) (j : S1000x128.Idx) :
    matmul (F := Ideal) (φ₁ := .bf16) (φ₂ := .bf16) dot_S1000x10000_S10000x128_S1000x128_1_0_0_1_n_n none a h (constant (F := Ideal) S1000x128 .f32 0x00000000#32) j = ∑ k : Fin 10000, a (stripe2At j k) * h (col2At j k) := by
  simp only [matmul]
  rw [Ideal.matmul_constant_zero_apply, ← Equiv.sum_comp (ValueIdx.contrEquiv1 dot_S1000x10000_S10000x128_S1000x128_1_0_0_1_n_n 10000 rfl rfl).symm]
  refine Finset.sum_congr rfl fun k _ => ?_
  have hk := ValueIdx.contrEquiv1_symm_val dot_S1000x10000_S10000x128_S1000x128_1_0_0_1_n_n 10000 rfl rfl k
  have el : dot_S1000x10000_S10000x128_S1000x128_1_0_0_1_n_n.lhsIdx j ((ValueIdx.contrEquiv1 dot_S1000x10000_S10000x128_S1000x128_1_0_0_1_n_n 10000 rfl rfl).symm k) = stripe2At j k := funext fun a => Fin.ext (by
    match a with
    | ⟨0, _⟩ => exact out_l0 _ _
    | ⟨1, _⟩ => exact (out_l1 _ _).trans hk)
  have er : dot_S1000x10000_S10000x128_S1000x128_1_0_0_1_n_n.rhsIdx j ((ValueIdx.contrEquiv1 dot_S1000x10000_S10000x128_S1000x128_1_0_0_1_n_n 10000 rfl rfl).symm k) = col2At j k := funext fun a => Fin.ext (by
    match a with
    | ⟨0, _⟩ => exact (out_r0 _ _).trans hk
    | ⟨1, _⟩ => exact out_r1 _ _)
  rw [el, er]

/-- The pre-activation `∑ₖ a[r,k] · h[k,c] + bias[c]` of an output stripe at an index. -/
def preact (a : Vec Ideal S1000x10000 .bf16) (h : Vec Ideal S10000x128 .bf16) (b : Vec Ideal S1x128 .f32) (j : S1000x128.Idx) : EReal :=
  (∑ k : Fin 10000, a (stripe2At j k) * h (col2At j k)) + b (biasAt j)

theorem pay_out_apply (a : Vec Ideal S1000x10000 .bf16) (h : Vec Ideal S10000x128 .bf16) (b : Vec Ideal S1x128 .f32) (p : Vec Ideal S1x1 .f32)
    (j : S1000x128.Idx) :
    k1_pay1 (F := Ideal) a h b p j
      = Scalar.select (FloatOps.cmpf .oge (preact a h b j) (FloatOps.ofBits (F := Ideal) .f32 0x00000000#32)) (preact a h b j) (p slopeAt * preact a h b j) := by
  unfold k1_pay1
  rw [ValueIdx.select_apply, ValueIdx.cmpf_apply, ValueIdx.mulf_apply, ValueIdx.addf_apply, ValueIdx.broadcast_apply, ValueIdx.broadcast_apply]
  rw [shapeCast_self, shapeCast_self, shapeCast_self, dot3_apply]
  rw [broadcastTo_apply b broadcasts_S1x128_S1000x128 j (biasAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])]
  rfl

end Cert.KernelIdeal.Val

end
-- ==== Proof.KernelIdeal.ValHop1.lean ====
import proofs.«164877_g18975165514648_fold_wed_m_529_18_alg».proof.Proof.KernelIdeal.Launch
import proofs.«164877_g18975165514648_fold_wed_m_529_18_alg».proof.Proof.KernelIdeal.ValDots
import proofs.«164877_g18975165514648_fold_wed_m_529_18_alg».proof.Proof.Gen.ReferenceIdeal.Read

set_option maxRecDepth 16384

noncomputable section

namespace Cert.KernelIdeal.Val

open Cert.KernelIdeal Cert.KernelIdeal.Gen
open Idealize.ShloMosaic Idealize.ShloMosaic.TcCoe Idealize.SL.Sem
open Cert.KernelIdeal.Fr
open Idealize.ShloMosaic.Pipeline (Dat)

/-! # What the first call leaves, over the extended reals

With `seq`, `adj`, `W` the launch contents of the first three arguments: the scratch is the reference's first stage
`seq · Wᵀ`; the first-hop array is the reference's second stage `adj · (seq · Wᵀ)`, stripe `t - 1` written back at
point `t`, the 25 stripes tiling the rows; and the narrowed copy of `adj` is `adj`. -/

theorem hz2 : (![0, 0] : Fin 2 → Nat) = fun _ => 0 := funext fun a => by fin_cases a <;> rfl

/-- The printed index maps of the first call, decided over its 26 points: the two resident inputs sit at block 0; the
    stripe input and both outputs move together along the rows, at stripe `t - 1`, and never along the columns. -/
theorem idx0 : ∀ t : Fin cfg0.N, win0_1.index t (0 : Fin 2) = 0 ∧ win0_1.index t (1 : Fin 2) = 0
    ∧ win0_2.index t (0 : Fin 2) = 0 ∧ win0_2.index t (1 : Fin 2) = 0
    ∧ win0_0.index t (1 : Fin 2) = 0 ∧ win0_3.index t (1 : Fin 2) = 0 ∧ win0_4.index t (1 : Fin 2) = 0
    ∧ win0_0.index t (0 : Fin 2) = win0_3.index t (0 : Fin 2) ∧ win0_4.index t (0 : Fin 2) = win0_3.index t (0 : Fin 2)
    ∧ win0_3.index t (0 : Fin 2) = t.val - 1 :=
  (by decide +kernel : ∀ t : Fin grid0.N, _)

/-- Both outputs are written back exactly at the points after 0. -/
theorem flush0 : ∀ t : Fin cfg0.N, ((cfg0.win 3).flush t = true ↔ t.val ≠ 0) ∧ ((cfg0.win 4).flush t = true ↔ t.val ≠ 0) :=
  (by decide +kernel : ∀ t : Fin grid0.N, _)

section
variable {F : FTy → Type} [FloatOps F]
variable (V : (c : Dev nD) → (b : Ref sig .tc) → Buf (Elt F) ((c : Thread nD τ).loc b))

/-- The resident `seq` block is the whole array. -/
theorem iblk0_seq (c : Dev nD) (t : Fin cfg0.N) : (iblk0 V c 1 t : S10000x128.Idx → Elt F .f32) = V c main_arg0 := by
  obtain ⟨e0, e1, -⟩ := idx0 t
  funext j
  show V c main_arg0 (((cfg0.win 1).blk t).view.emb j) = V c main_arg0 j
  refine congrArg _ (funext fun a => Fin.ext ?_)
  match a with
  | ⟨0, _⟩ => show win0_1.index t (0 : Fin 2) * 10000 + 1 * (j 0).val = (j 0).val; omega
  | ⟨1, _⟩ => show win0_1.index t (1 : Fin 2) * 128 + 1 * (j 1).val = (j 1).val; omega

/-- The resident weight block is the whole array. -/
theorem iblk0_w (c : Dev nD) (t : Fin cfg0.N) : (iblk0 V c 2 t : S128x128.Idx → Elt F .f32) = V c main_arg2 := by
  obtain ⟨-, -, e0, e1, -⟩ := idx0 t
  funext j
  show V c main_arg2 (((cfg0.win 2).blk t).view.emb j) = V c main_arg2 j
  refine congrArg _ (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega
end

/-! ## Membership in an output block, and the cover -/

theorem mem_blk0_3 (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0_0).slice (win0_3.rect t)).set ↔ _
  rw [View.set_slice_whole, Rect.mem_set_unit]
  exact Iff.rfl

theorem mem_blk0_4 (t : Fin cfg0.N) (i : S10000x10000.Idx) :
    i ∈ ((cfg0.win 4).blk t).view.set ↔ ∀ a : Fin 2, win0_4.index t a * S400x10000.size a ≤ (i a).val ∧ (i a).val < win0_4.index t a * S400x10000.size a + S400x10000.size a := by
  show i ∈ ((View.whole main_v0_1).slice (win0_4.rect t)).set ↔ _
  rw [View.set_slice_whole, Rect.mem_set_unit]
  exact Iff.rfl

/-- Every stripe is some later point's. -/
theorem onto0 : ∀ q : Fin 25, ∃ t : Fin cfg0.N, t.val = q.val + 1 :=
  (by decide +kernel : ∀ q : Fin 25, ∃ t : Fin grid0.N, t.val = q.val + 1)

theorem cover0_3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := onto0 ⟨(i 0).val / 400, by omega⟩
  have ht' : t.val = (i 0).val / 400 + 1 := ht
  obtain ⟨-, -, -, -, -, e31, -, -, -, e30⟩ := idx0 t
  refine ⟨t, ((flush0 t).1).mpr (by omega), ?_⟩
  rw [mem_blk0_3]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

theorem cover0_4 (i : S10000x10000.Idx) : ∃ t : Fin cfg0.N, (cfg0.win 4).flush t = true ∧ i ∈ ((cfg0.win 4).blk t).view.set := by
  have hi0 : (i 0).val < 10000 := (i 0).isLt
  have hi1 : (i 1).val < 10000 := (i 1).isLt
  obtain ⟨t, ht⟩ := onto0 ⟨(i 0).val / 400, by omega⟩
  have ht' : t.val = (i 0).val / 400 + 1 := ht
  obtain ⟨-, -, -, -, -, -, e41, -, e40, e30⟩ := idx0 t
  refine ⟨t, ((flush0 t).2).mpr (by omega), ?_⟩
  rw [mem_blk0_4]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 10000 ≤ (i 1).val ∧ (i 1).val < win0_4.index t (1 : Fin 2) * 10000 + 10000; omega

/-! ## The three values -/

section
variable (m : (ℓ : Loc nD τ sig) → Buf (Elt Ideal) ℓ)

/-- The scratch from point 0 on is the reference's `seq · Wᵀ`. -/
theorem scrAt_eq (c : Dev nD) :
    scrAt (V0 m) c = Cert.ReferenceIdeal.Read.val_main_v1 (F := Ideal) (m ((c : Thread nD τ).loc main_arg0)) (m ((c : Thread nD τ).loc main_arg2)) := by
  funext i
  unfold scrAt scr0
  rw [View.canon_unit_zero hz2]
  simp only [View.ld_unit_zero (S := S10000x128) hz2, View.ld_unit_zero (S := S128x128) hz2]
  rw [pay1_apply, iblk0_seq, iblk0_w]
  refine Eq.trans ?_ (Cert.ReferenceIdeal.Read.val_main_v1_apply _ _ i).symm
  refine Finset.sum_congr rfl fun k _ => ?_
  rw [Cert.ReferenceIdeal.Read.val_main_v0_apply]
  refine congrArg₂ (· * ·) rfl (congrArg _ (funext fun a => Fin.ext ?_))
  match a with
  | ⟨0, _⟩ => rfl
  | ⟨1, _⟩ => rfl

/-- What a later point writes back into the first-hop array is that block of the reference's `adj · (seq · Wᵀ)`. -/
theorem flushed0_3 (c : Dev nD) (t : Fin cfg0.N) (hf : (cfg0.win 3).flush t = true) :
    (dat0 (V0 m) c).flushed 3 t = ((cfg0.win 3).blk t).view.read (Elt Ideal)
      (Cert.ReferenceIdeal.Read.val_main_v2 (F := Ideal) (m ((c : Thread nD τ).loc main_arg0)) (m ((c : Thread nD τ).loc main_arg1)) (m ((c : Thread nD τ).loc main_arg2))) := by
  show (cfg0.win 3).cut (grid0.coords t) ((dat0 (V0 m) c).after 3 t) = _
  rw [after0_3]
  unfold hop0
  rw [View.canon_unit_zero hz2]
  simp only [View.ld_unit_zero (S := S400x10000) hz2, View.ld_unit_zero (S := S10000x128) hz2]
  obtain ⟨-, -, -, -, e01, e31, -, e00, -, -⟩ := idx0 t
  funext j
  show k0_pay3 (F := Ideal) (iblk0 (V0 m) c 0 t) (scrAt (V0 m) c) j = _
  refine (pay3_apply (iblk0 (V0 m) c 0 t) (scrAt (V0 m) c) j).trans ?_
  rw [scrAt_eq]
  refine Eq.trans ?_ (Cert.ReferenceIdeal.Read.val_main_v2_apply _ _ _ (((cfg0.win 3).blk t).view.emb j)).symm
  refine Finset.sum_congr rfl fun k _ => ?_
  refine congrArg₂ (· * ·) ?_ (congrArg _ (funext fun a => Fin.ext ?_))
  · show V0 m c main_arg1 (((cfg0.win 0).blk t).view.emb (stripeAt j k)) = _
    refine congrArg _ (funext fun a => Fin.ext ?_)
    match a with
    | ⟨0, _⟩ => show win0_0.index t (0 : Fin 2) * 400 + 1 * (j 0).val = win0_3.index t (0 : Fin 2) * 400 + 1 * (j 0).val; omega
    | ⟨1, _⟩ => show win0_0.index t (1 : Fin 2) * 10000 + 1 * k.val = k.val; omega
  · match a with
    | ⟨0, _⟩ => rfl
    | ⟨1, _⟩ => show (j 1).val = win0_3.index t (1 : Fin 2) * 128 + 1 * (j 1).val; omega

/-- The first-hop array after the call. -/
theorem hop_final (c : Dev nD) :
    (dat0 (V0 m) c).arrAt 3 cfg0.N
      = Cert.ReferenceIdeal.Read.val_main_v2 (F := Ideal) (m ((c : Thread nD τ).loc main_arg0)) (m ((c : Thread nD τ).loc main_arg1)) (m ((c : Thread nD τ).loc main_arg2)) :=
  (dat0 (V0 m) c).arrAt_eq_of_cover 3 _ (fun t hf => flushed0_3 m c t hf) cover0_3

/-- What a later point writes back into the narrowed copy is that block of `adj`. -/
theorem flushed0_4 (c : Dev nD) (t : Fin cfg0.N) (hf : (cfg0.win 4).flush t = true) :
    (dat0 (V0 m) c).flushed 4 t = ((cfg0.win 4).blk t).view.read (Elt Ideal) (m ((c : Thread nD τ).loc main_arg1)) := by
  show (cfg0.win 4).cut (grid0.coords t) ((dat0 (V0 m) c).after 4 t) = _
  rw [after0_4]
  unfold nar0
  rw [View.canon_unit_zero hz2]
  simp only [View.ld_unit_zero (S := S400x10000) hz2]
  obtain ⟨-, -, -, -, e01, -, e41, e00, e40, -⟩ := idx0 t
  funext j
  show k0_pay2 (F := Ideal) (iblk0 (V0 m) c 0 t) j = _
  refine (pay2_apply (iblk0 (V0 m) c 0 t) j).trans ?_
  show V0 m c main_arg1 (((cfg0.win 0).blk t).view.emb j) = m ((c : Thread nD τ).loc main_arg1) (((cfg0.win 4).blk t).view.emb j)
  refine congrArg _ (funext fun a => Fin.ext ?_)
  match a with
  | ⟨0, _⟩ => show win0_0.index t (0 : Fin 2) * 400 + 1 * (j 0).val = win0_4.index t (0 : Fin 2) * 400 + 1 * (j 0).val; omega
  | ⟨1, _⟩ => show win0_0.index t (1 : Fin 2) * 10000 + 1 * (j 1).val = win0_4.index t (1 : Fin 2) * 10000 + 1 * (j 1).val; omega

/-- The narrowed copy after the call is `adj`. -/
theorem nar_final (c : Dev nD) : (dat0 (V0 m) c).arrAt 4 cfg0.N = m ((c : Thread nD τ).loc main_arg1) :=
  (dat0 (V0 m) c).arrAt_eq_of_cover 4 _ (fun t hf => flushed0_4 m c t hf) cover0_4
end

end Cert.KernelIdeal.Val

end
-- ==== Proof.KernelIdeal.ValHop2.lean ====
import proofs.«164877_g18975165514648_fold_wed_m_529_18_alg».proof.Proof.KernelIdeal.ValHop1

set_option maxRecDepth 16384

noncomputable section

namespace Cert.KernelIdeal.Val

open Cert.KernelIdeal Cert.KernelIdeal.Gen
open Idealize.ShloMosaic Idealize.ShloMosaic.TcCoe Idealize.SL.Sem
open Cert.KernelIdeal.Fr
open Idealize.ShloMosaic.Pipeline (Dat)

/-! # What the second call leaves, over the extended reals

The second call is entered with the narrowed copy holding `adj`, the first-hop array holding `adj · (seq · Wᵀ)`,
and the two reshapes holding the bias as a row and the slope as one cell. Point `t` writes back rows
`1000 t … 1000 t + 999` of `prelu (adj · hop₁ + bias)`; the ten stripes tile the rows. -/

/-- The second call's index maps over its 10 points. -/
theorem idx1 : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_0.index t (1 : Fin 2) = 0 ∧ win1_4.index t (1 : Fin 2) = 0
    ∧ win1_0.index t (0 : Fin 2) = win1_4.index t (0 : Fin 2) ∧ win1_4.index t (0 : Fin 2) = t.val :=
  (by decide +kernel : ∀ t : Fin grid1.N, _)

theorem onto1 : ∀ q : Fin 10, ∃ t : Fin cfg1.N, t.val = q.val :=
  (by decide +kernel : ∀ q : Fin 10, ∃ t : Fin grid1.N, t.val = q.val)

theorem mem_blk1_4 (t : Fin cfg1.N) (i : S10000x128.Idx) :
    i ∈ ((cfg1.win 4).blk t).view.set ↔ ∀ a : Fin 2, win1_4.index t a * S1000x128.size a ≤ (i a).val ∧ (i a).val < win1_4.index t a * S1000x128.size a + S1000x128.size a := by
  show i ∈ ((View.whole main_v3).slice (win1_4.rect t)).set ↔ _
  rw [View.set_slice_whole, Rect.mem_set_unit]
  exact Iff.rfl

theorem cover1_4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  obtain ⟨t, ht⟩ := onto1 ⟨(i 0).val / 1000, by omega⟩
  have ht' : t.val = (i 0).val / 1000 := ht
  obtain ⟨-, -, -, -, -, -, -, e41, -, e40⟩ := idx1 t
  refine ⟨t, flush1_4 t, ?_⟩
  rw [mem_blk1_4]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 128 ≤ (i 1).val ∧ (i 1).val < win1_4.index t (1 : Fin 2) * 128 + 128; omega

section
variable {F : FTy → Type} [FloatOps F]
variable (V : (c : Dev nD) → (b : Ref sig .tc) → Buf (Elt F) ((c : Thread nD τ).loc b))

/-- The resident first-hop block is the whole array. -/
theorem iblk1_hop (c : Dev nD) (t : Fin cfg1.N) : (iblk1 V c 1 t : S10000x128.Idx → Elt F .bf16) = V c main_v0_0 := by
  obtain ⟨e0, e1, -⟩ := idx1 t
  funext j
  show V c main_v0_0 (((cfg1.win 1).blk t).view.emb j) = V c main_v0_0 j
  refine congrArg _ (funext fun a => Fin.ext ?_)
  match a with
  | ⟨0, _⟩ => show win1_1.index t (0 : Fin 2) * 10000 + 1 * (j 0).val = (j 0).val; omega
  | ⟨1, _⟩ => show win1_1.index t (1 : Fin 2) * 128 + 1 * (j 1).val = (j 1).val; omega

/-- The resident bias block is the whole row. -/
theorem iblk1_bias (c : Dev nD) (t : Fin cfg1.N) : (iblk1 V c 2 t : S1x128.Idx → Elt F .f32) = V c main_v1 := by
  obtain ⟨-, -, e0, e1, -⟩ := idx1 t
  funext j
  show V c main_v1 (((cfg1.win 2).blk t).view.emb j) = V c main_v1 j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- The resident slope block is the whole cell. -/
theorem iblk1_slope (c : Dev nD) (t : Fin cfg1.N) : (iblk1 V c 3 t : S1x1.Idx → Elt F .f32) = V c main_v2 := by
  obtain ⟨-, -, -, -, e0, e1, -⟩ := idx1 t
  funext j
  show V c main_v2 (((cfg1.win 3).blk t).view.emb j) = V c main_v2 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 1 + 1 * (j 1).val = (j 1).val; omega
end

/-- The bias's index `c` from the row index `(0, c)`. -/
abbrev biasIdx (j : S1x128.Idx) : S128.Idx := fun a => match a with
  | ⟨0, _⟩ => ⟨(j 1).val, (j 1).isLt⟩

section
variable (m : (ℓ : Loc nD τ sig) → Buf (Elt Ideal) ℓ)

/-- Neither reshape writes a buffer other than its own result. -/
theorem W2_of_not_written (c : Dev nD) (b : Ref sig .tc) (h1 : b ≠ main_v1) (h2 : b ≠ main_v2) :
    W2 m c (Proc.devRef .tc b) = W1 m c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-- At the second call's entry the narrowed copy holds `adj`. -/
theorem V2_nar (c : Dev nD) : V2 m c main_v0_1 = m ((c : Thread nD τ).loc main_arg1) :=
  (W2_of_not_written m c main_v0_1 (by decide) (by decide)).trans ((W1_arr m c 4).trans (nar_final m c))

/-- At the second call's entry the first-hop array holds `adj · (seq · Wᵀ)`. -/
theorem V2_hop (c : Dev nD) : V2 m c main_v0_0
    = Cert.ReferenceIdeal.Read.val_main_v2 (F := Ideal) (m ((c : Thread nD τ).loc main_arg0)) (m ((c : Thread nD τ).loc main_arg1)) (m ((c : Thread nD τ).loc main_arg2)) :=
  (W2_of_not_written m c main_v0_0 (by decide) (by decide)).trans ((W1_arr m c 3).trans (hop_final m c))

/-- The bias row after the reshape: the bias at the column. -/
theorem V2_bias (c : Dev nD) (j : S1x128.Idx) : V2 m c main_v1 j = m ((c : Thread nD τ).loc main_arg3) (biasIdx j) := by
  have e : (V2 m c main_v1 : S1x128.Idx → EReal) = shapeCast S1x128 (W1 m c (Proc.devRef .tc main_arg3)) shapeCasts_S128_S1x128 := by
    show StableHlo.after hostOps1 (W1 m c) (Proc.devRef .tc main_v1) = _
    after_results
    rfl
  rw [e, W1_of_ne m c main_arg3 (by decide)]
  refine shapeCast_apply _ shapeCasts_S128_S1x128 j (biasIdx j) ?_
  rw [Shape.rowMajor_val_one, Shape.rowMajor_val_two]
  have : (j 0).val < 1 := (j 0).isLt
  show (j 1).val = (j 0).val * 128 + (j 1).val
  omega

/-- The slope cell after the reshape: the slope. -/
theorem V2_slope (c : Dev nD) (j : S1x1.Idx) (z : S_.Idx) : V2 m c main_v2 j = m ((c : Thread nD τ).loc main_arg4) z := by
  have e : (V2 m c main_v2 : S1x1.Idx → EReal) = shapeCast S1x1 (W1 m c (Proc.devRef .tc main_arg4)) shapeCasts_S_S1x1 := by
    show StableHlo.after hostOps1 (W1 m c) (Proc.devRef .tc main_v2) = _
    after_results
    rfl
  rw [e, W1_of_ne m c main_arg4 (by decide)]
  refine (shapeCast_apply _ shapeCasts_S_S1x1 j z ?_)
  have h0 : (j 0).val < 1 := (j 0).isLt
  have h1 : (j 1).val < 1 := (j 1).isLt
  rw [Shape.rowMajor_val_two]
  show (S_.rowMajor z).val = (j 0).val * 1 + (j 1).val
  have : (S_.rowMajor z).val < 1 := (S_.rowMajor z).isLt
  omega

/-- The pre-activation at an index of output stripe `t` is the reference's `adj · hop₁ + bias` at that row. -/
theorem preact_eq (c : Dev nD) (t : Fin cfg1.N) (j : S1000x128.Idx) :
    preact (iblk1 (V2 m) c 0 t) (iblk1 (V2 m) c 1 t) (iblk1 (V2 m) c 2 t) j
      = Cert.ReferenceIdeal.Read.val_main_v6 (F := Ideal) (m ((c : Thread nD τ).loc main_arg0)) (m ((c : Thread nD τ).loc main_arg1)) (m ((c : Thread nD τ).loc main_arg2)) (m ((c : Thread nD τ).loc main_arg3)) (((cfg1.win 4).blk t).view.emb j) := by
  obtain ⟨-, -, -, -, -, -, e01, e41, e00, -⟩ := idx1 t
  unfold preact
  rw [iblk1_hop, iblk1_bias, V2_hop, V2_bias]
  refine Eq.trans ?_ (Cert.ReferenceIdeal.Read.val_main_v6_apply (F := Ideal) (m ((c : Thread nD τ).loc main_arg0)) (m ((c : Thread nD τ).loc main_arg1)) (m ((c : Thread nD τ).loc main_arg2)) (m ((c : Thread nD τ).loc main_arg3)) (((cfg1.win 4).blk t).view.emb j)).symm
  show _ + _ = _ + _
  refine congrArg₂ (· + ·) ?_ ?_
  · refine Eq.trans ?_ (Cert.ReferenceIdeal.Read.val_main_v3_apply _ _ _ (((cfg1.win 4).blk t).view.emb j)).symm
    refine Finset.sum_congr rfl fun k _ => ?_
    refine congrArg₂ (· * ·) ?_ (congrArg _ (funext fun a => Fin.ext ?_))
    · show V2 m c main_v0_1 (((cfg1.win 0).blk t).view.emb (stripe2At j k)) = _
      rw [V2_nar]
      refine congrArg _ (funext fun a => Fin.ext ?_)
      match a with
      | ⟨0, _⟩ => show win1_0.index t (0 : Fin 2) * 1000 + 1 * (j 0).val = win1_4.index t (0 : Fin 2) * 1000 + 1 * (j 0).val; omega
      | ⟨1, _⟩ => show win1_0.index t (1 : Fin 2) * 10000 + 1 * k.val = k.val; omega
    · match a with
      | ⟨0, _⟩ => rfl
      | ⟨1, _⟩ => show (j 1).val = win1_4.index t (1 : Fin 2) * 128 + 1 * (j 1).val; omega
  · rw [Cert.ReferenceIdeal.Read.val_main_v5_apply, Cert.ReferenceIdeal.Read.val_main_v4_apply]
    refine congrArg _ (funext fun a => Fin.ext ?_)
    match a with
    | ⟨0, _⟩ => show (j 1).val = win1_4.index t (1 : Fin 2) * 128 + 1 * (j 1).val; omega

/-- What point `t` of the second call writes back is that block of the reference's result. -/
theorem flushed1_4 (c : Dev nD) (t : Fin cfg1.N) :
    (dat1 (V2 m) c).flushed 4 t = ((cfg1.win 4).blk t).view.read (Elt Ideal)
      (Cert.ReferenceIdeal.Read.val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show (cfg1.win 4).cut (grid1.coords t) ((dat1 (V2 m) c).after 4 t) = _
  rw [after1_4]
  unfold out1
  rw [View.canon_unit_zero hz2]
  simp only [View.ld_unit_zero (S := S1000x10000) hz2, View.ld_unit_zero (S := S10000x128) hz2, View.ld_unit_zero (S := S1x128) hz2, View.ld_unit_zero (S := S1x1) hz2]
  funext j
  show k1_pay1 (F := Ideal) (iblk1 (V2 m) c 0 t) (iblk1 (V2 m) c 1 t) (iblk1 (V2 m) c 2 t) (iblk1 (V2 m) c 3 t) j = _
  refine (pay_out_apply (iblk1 (V2 m) c 0 t) (iblk1 (V2 m) c 1 t) (iblk1 (V2 m) c 2 t) (iblk1 (V2 m) c 3 t) j).trans ?_
  rw [preact_eq, iblk1_slope, V2_slope m c slopeAt (Cert.ReferenceIdeal.Read.idx_main_v9 (((cfg1.win 4).blk t).view.emb j))]
  show _ = Cert.ReferenceIdeal.Read.val_main_v11 (F := Ideal) _ _ _ _ _ (((cfg1.win 4).blk t).view.emb j)
  rw [Cert.ReferenceIdeal.Read.val_main_v11_apply, Cert.ReferenceIdeal.Read.val_main_v8_apply, Cert.ReferenceIdeal.Read.val_main_v10_apply, Cert.ReferenceIdeal.Read.val_main_v7_apply, Cert.ReferenceIdeal.Read.val_main_cst_apply, Cert.ReferenceIdeal.Read.val_main_v9_apply]
  rfl

/-- THE RESULT: the second call's output array after the run is the reference's result. -/
theorem out_final (c : Dev nD) :
    (dat1 (V2 m) c).arrAt 4 cfg1.N
      = Cert.ReferenceIdeal.Read.val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (dat1 (V2 m) c).arrAt_eq_of_cover 4 _ (fun t _ => flushed1_4 m c t) cover1_4
end

end Cert.KernelIdeal.Val

end
-- ==== Proof.lean ====
/-
  Two dense hops of a graph convolution against its jnp reference: `prelu (adj · (adj · (seq · Wᵀ)) + bias)` over
  f32[10000, 128], with `adj` a dense 10000 × 10000 matrix, one shared slope.

  The kernel makes two calls. The first walks 26 grid points: point 0 fills a resident scratch with `seq · Wᵀ`; point
  `t ≥ 1` reads row stripe `t - 1` of `adj` (400 rows, full width) and writes that stripe of a narrowed copy of `adj`
  and of the first hop `adj · scratch`, narrowed. The second walks 10 stripes of 1000 rows of the narrowed copy and
  writes `prelu (stripe · hop₁ + bias)`. Between the calls the bias and the slope are reshaped to a row and a cell.

  Over the extended reals narrowing a float is the identity and a matrix product into a zero accumulator is the plain
  sum over the contracted axis, so index by index both programs are the same nested sum: no law beyond reading the
  operations at an index joins the two sides, and the finiteness of the inputs is never used.

  The frames. Each call's body is run once per branch assignment its grid meets (the first call's point 0, its later
  points; the second call's one case). The first call's region invariant names the scratch's contents from point 0 on;
  its two output stripes are idle at point 0, where nothing is written back. The run of @main holds every unscoped
  buffer at a known valuation between items: the launch memory, then the first call's arrays at what its write-backs
  leave, then the two reshapes applied, then the second call's. The arguments walk back through those valuations to
  the launch memory; the result is the second call's output array, whose ten written-back blocks tile it.
-/
import proofs.«164877_g18975165514648_fold_wed_m_529_18_alg».proof.Proof.Kernel.Launch
import proofs.«164877_g18975165514648_fold_wed_m_529_18_alg».proof.Proof.KernelIdeal.ValHop2
import proofs.«164877_g18975165514648_fold_wed_m_529_18_alg».proof.Proof.Gen.ReferenceIdeal
import proofs.«164877_g18975165514648_fold_wed_m_529_18_alg».proof.Proof.Gen.ReferenceIdeal.Run
import proofs.«164877_g18975165514648_fold_wed_m_529_18_alg».proof.Proof.Gen.ReferenceIdeal.Read
import proofs.«164877_g18975165514648_fold_wed_m_529_18_alg».proof.Proof.Gen.Pre_finite_inputs
import proofs.«164877_g18975165514648_fold_wed_m_529_18_alg».proof.Defs

noncomputable section

namespace Cert.Proof

open Idealize.ShloMosaic Idealize.ShloMosaic.TcCoe Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the reference's last stage of the (agreeing) arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.ReferenceIdeal.Read.val_main_v11 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Val.out_final m c), (h c).2⟩)
      (Cert.KernelIdeal.Fr.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
